-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x128 : Shape := ⟨2, ![512, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S16384x512 .f32) (main_arg1 : FVec F S16384x16384 .f32) (main_arg2 : FVec F S512x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  main_v13
-- ==== Kernel.lean ====
abbrev S16384x512 : Shape := ⟨2, ![16384, 512]⟩
abbrev S16384x16384 : Shape := ⟨2, ![16384, 16384]⟩
abbrev S512x128 : Shape := ⟨2, ![512, 128]⟩
abbrev S16384x128 : Shape := ⟨2, ![16384, 128]⟩
abbrev S2048x512 : Shape := ⟨2, ![2048, 512]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 5
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S16384x128, .bf16⟩
  | .hbm, ⟨4, _⟩ => ⟨S16384x128, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S2048x128, .bf16⟩
  | .local _ .vmem, ⟨4, _⟩ => ⟨S2048x128, .bf16⟩
  | .local _ .vmem, ⟨5, _⟩ => ⟨S1024x2048, .f32⟩
  | .local _ .vmem, ⟨6, _⟩ => ⟨S1024x2048, .f32⟩
  | .local _ .vmem, ⟨7, _⟩ => ⟨S2048x128, .bf16⟩
  | .local _ .vmem, ⟨8, _⟩ => ⟨S2048x128, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  shapeCasts_S2048x128_S2048x128 : S2048x128.ShapeCasts S2048x128
  dot_S2048x512_S512x128_S2048x128_1_0_0_1_n_n_wf : DotDims.WF S2048x512 S512x128 S2048x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .bf16 = 32 ∨ (Rect.block (s := S16384x128) S2048x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .bf16 = 32 ∨ (Rect.block (s := S16384x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x128 : Shape := ⟨2, ![512, 128]⟩
abbrev S16384x128 : Shape := ⟨2, ![16384, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S16384x128, .f32⟩
  | .hbm, ⟨4, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16384x512_S512x128_S16384x128_1_0_0_1_n_n_wf : DotDims.WF S16384x512 S512x128 S16384x128 [1] [0] [0] [1] [] []
  dot_S16384x16384_S16384x128_S16384x128_1_0_0_1_n_n_wf : DotDims.WF S16384x16384 S16384x128 S16384x128 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.KernelProjRegion.lean ====
/-
  The projection kernel `x = inputs @ weights` as one pipelined region, at any float instance: eight grid points,
  point `t` reading rows [2048 t, 2048 (t+1)) of `inputs` and the whole of `weights` (fetched once, at the first
  point) and writing the same rows of `x`. Stated at a parameter `V`, the contents of the core's buffers when the
  region is entered: what each window's staging buffer holds before and after the body at each point, the body's
  triple, and the body obligation of the pipeline's proof data.
-/
import proofs.«109502_j53240414601890_1_alg».proof.Proof.Gen.Kernel.Launch
import proofs.«109502_j53240414601890_1_alg».proof.Proof.Gen.Kernel.Skeleton
import proofs.«109502_j53240414601890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `inputs` a point reads are in its staging buffer when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- `weights` is fetched at the first point only; its block index never moves, so the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body: one whole-block store -/

abbrev rIn0 : Rect S2048x512 := Rect.unit (s := S2048x512) ![0, 0] S2048x512.size inb_S2048x512_S2048x512_0_0
abbrev rW0 : Rect S512x128 := Rect.unit (s := S512x128) ![0, 0] S512x128.size inb_S512x128_S512x128_0_0
abbrev rOut0 : Rect S2048x128 := Rect.unit (s := S2048x128) ![0, 0] S2048x128.size inb_S2048x128_S2048x128_0_0

/-- What the body leaves in the output's staging buffer: the product of the two input blocks, stored whole. -/
def projOut (x0 : Vec F S2048x512 .f32) (x1 : Vec F S512x128 .f32) : Vec F S2048x128 .bf16 :=
  View.canon [⟨rOut0, k0_pay1 (View.ld x0 rIn0) (View.ld x1 rW0)⟩]

theorem projCover (p0 : Vec F S2048x128 .bf16) (y : S2048x128.Idx) :
    ∃ pc ∈ ([⟨rOut0, p0⟩] : List (View.Piece (Elt F) S2048x128 .bf16)), y ∈ pc.1.set :=
  View.cover_of_tiled [⟨rOut0, p0⟩] S2048x128.size (by rfl) y

set_option maxHeartbeats 1000000 in
/-- The body on whole staging memrefs: the inputs come back as they were, the output's buffer holds `projOut` of them. -/
theorem sound_proj (c : Dev nD) (E : Set ℕ) (i : grid0.Coords) (arg1 : Memref sig .tc .vmem S2048x512 .f32) (harg1 : arg1.IsWhole)
    (arg2 : Memref sig .tc .vmem S512x128 .f32) (harg2 : arg2.IsWhole) (arg3 : Memref sig .tc .vmem S2048x128 .bf16) (harg3 : arg3.IsWhole)
    (x0 : Vec F S2048x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## The pipeline's proof data -/

/-- Region 0's proof data on core `c`: the arrays as the region finds them; after the body at point `t` each input's
    buffer still at its block and the output's at the product of the two blocks; the invariant is the scoped buffers
    the kernel does not use and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => projOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KernelAggRuns.lean ====
/-
  The aggregation kernel `out = adj @ x` as one pipelined region of 16 × 8 grid points, at any float instance: point
  (i, k) reads block (i, k) of `adj` (1024 × 2048) and block k of `x` (2048 × 128) and adds their product into a
  1024 × 128 accumulator kept in scratch memory across the eight k-steps of a row block: the accumulator is zeroed at
  k = 0 and copied to the output block at k = 7. This module: the blocks, the two conditions decided over the grid,
  where the output window is idle, and the body's run in each of the three cases the grid meets (k = 0; 0 < k < 7;
  k = 7), each leaving the accumulator (and at k = 7 the output buffer) as a list of stored pieces.
-/
import proofs.«109502_j53240414601890_1_alg».proof.Proof.Gen.Kernel.Launch
import proofs.«109502_j53240414601890_1_alg».proof.Proof.Gen.Kernel.Skeleton
import proofs.«109502_j53240414601890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of `adj` a point reads is in its staging buffer when the body starts. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So is the block of `x`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the grid point -/

/-- "This is the first k-step" (the accumulator is zeroed), as the body computes it from the grid coordinates. -/
abbrev isFirstK (i : grid1.Coords) : Prop := (Scalar.cmpi .ne (Scalar.extui (Scalar.cmpi .eq (BitVec.ofNat 32 (i 1).val) 0#32)) 0#32) = 1#1
theorem isFirstK_iff : ∀ t : Fin cfg1.N, isFirstK (grid1.coords t) ↔ t.val % 8 = 0 :=
  (by decide +kernel : ∀ t : Fin grid1.N, isFirstK (grid1.coords t) ↔ t.val % 8 = 0)

/-- "This is the last k-step" (the accumulator is copied out). -/
abbrev isLastK (i : grid1.Coords) : Prop := k1_cond2 i = 1#1
theorem isLastK_iff : ∀ t : Fin cfg1.N, isLastK (grid1.coords t) ↔ t.val % 8 = 7 :=
  (by decide +kernel : ∀ t : Fin grid1.N, isLastK (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last k-step the body stores nothing into the output window, -/
theorem idleAt1_2 : ∀ t : Fin cfg1.N, ¬isLastK (grid1.coords t) → cfg1.idle 2 (grid1.coords t) = true := by decide +kernel
/-- and the pipeline does not write its block back; -/
theorem noFlush1_2 : ∀ t : Fin cfg1.N, ¬isLastK (grid1.coords t) → (cfg1.win 2).flush t = false := by decide +kernel
/-- on the last k-step it stores the whole block. -/
theorem liveAt1_2 : ∀ t : Fin cfg1.N, isLastK (grid1.coords t) → cfg1.idle 2 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev accM : Memref sig .tc .vmem S1024x128 .f32 := Memref.whole cc1_scratch0
abbrev accV : View sig .tc .vmem S1024x128 .f32 := accM.view
/-- One staging buffer of the output window, through which its contents are stated. -/
abbrev outV : View sig .tc .vmem S1024x128 .f32 := (Memref.whole cc1_stg2_0 : Memref sig .tc .vmem S1024x128 .f32).view

/-- The core's scoped buffers that are no staging buffer of this region: the projection kernel's five staging buffers,
    each at some contents (the body never touches them), beside what is said of the accumulator (`S`). -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The class invariant of this region, spelt out: those five buffers, the accumulator at some contents, the generator
    register at some state. -/
theorem PhiA1_eq (c : Dev nD) :
    (Pipeline.ΦA spec1 c : sProp 𝕄)
      = iprop(scopedWith c iprop(∃ d, owns (c : Thread nD τ) accM fullShare d) ∗ (∃ r, prngReg c r)) := by
  unfold Pipeline.ΦA scopedWith; rw [scopedRest1_eq]; simp only [accM, owns_whole]; try rfl

/-! ## The body's run, case by case -/

set_option maxHeartbeats 1000000 in
/-- First k-step (k = 0, not the last): the accumulator, found at anything, is zeroed and the product added; the output
    buffer is handed back untouched. The accumulator's stored pieces (last first) are the witness the run finds. -/
noncomputable def aggRunFirst (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : isFirstK i) (hc1 : ¬isLastK i)
    (x0 : Vec F S1024x2048 .f32) (x1 : Vec F S2048x128 .bf16) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A middle k-step (0 < k < 7): the product is added to what the step before left in the accumulator (`xs`); the
    output buffer is handed back untouched. -/
noncomputable def aggRunMid (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : ¬isLastK i)
    (x0 : Vec F S1024x2048 .f32) (x1 : Vec F S2048x128 .bf16) (xs : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- The last k-step (k = 7): the product is added to what the step before left, and the sum is copied into the output
    buffer (found at anything). The pieces stored into the output buffer and into the accumulator are the witnesses. -/
noncomputable def aggRunLast (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : isLastK i)
    (x0 : Vec F S1024x2048 .f32) (x1 : Vec F S2048x128 .bf16) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frm

end
-- ==== Proof.KernelAggRegion.lean ====
/-
  The aggregation region's proof data and body obligation, at any float instance and at a parameter `V` (the buffers'
  contents when the region is entered). The accumulator after point t is given by a recursion on the point: at a point
  with k = 0 it is the product of the point's two blocks added to zeros, at any other point that product added to what
  the point before left. The region's invariant keeps the accumulator at exactly that between points; the output
  window's staging buffer receives the accumulator at the points with k = 7 and is left alone elsewhere.
-/
import proofs.«109502_j53240414601890_1_alg».proof.Proof.KernelAggRuns
import Idealize.ShloMosaic.Lib.Pipeline.Value

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-! ## What each case's stores amount to -/

theorem accCoverFirst (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : isFirstK i) (hc1 : ¬isLastK i)
    (x0 : Vec F S1024x2048 .f32) (x1 : Vec F S2048x128 .bf16) (y : S1024x128.Idx) :
    ∃ pc ∈ (aggRunFirst c i arg2 harg2 arg3 harg3 arg4 harg4 arg5 harg5 hc0 hc1 x0 x1).1, y ∈ pc.1.set :=
  View.cover_of_tiledL (aggRunFirst c i arg2 harg2 arg3 harg3 arg4 harg4 arg5 harg5 hc0 hc1 x0 x1).1 S1024x128.size (by sl_kernel_rfl) y

theorem accCoverMid (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : ¬isLastK i)
    (x0 : Vec F S1024x2048 .f32) (x1 : Vec F S2048x128 .bf16) (xs : Vec F S1024x128 .f32) (y : S1024x128.Idx) :
    ∃ pc ∈ (aggRunMid c i arg2 harg2 arg3 harg3 arg4 harg4 arg5 harg5 hc0 hc1 x0 x1 xs).1, y ∈ pc.1.set :=
  View.cover_of_tiledL (aggRunMid c i arg2 harg2 arg3 harg3 arg4 harg4 arg5 harg5 hc0 hc1 x0 x1 xs).1 S1024x128.size (by sl_kernel_rfl) y

theorem outCoverLast (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : isLastK i)
    (x0 : Vec F S1024x2048 .f32) (x1 : Vec F S2048x128 .bf16) (xs : Vec F S1024x128 .f32) (y : S1024x128.Idx) :
    ∃ pc ∈ (aggRunLast c i arg2 harg2 arg3 harg3 arg4 harg4 arg5 harg5 hc0 hc1 x0 x1 xs).1, y ∈ pc.1.set :=
  View.cover_of_tiledL (aggRunLast c i arg2 harg2 arg3 harg3 arg4 harg4 arg5 harg5 hc0 hc1 x0 x1 xs).1 S1024x128.size (by sl_kernel_rfl) y

theorem accCoverLast (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : isLastK i)
    (x0 : Vec F S1024x2048 .f32) (x1 : Vec F S2048x128 .bf16) (xs : Vec F S1024x128 .f32) (y : S1024x128.Idx) :
    ∃ pc ∈ (aggRunLast c i arg2 harg2 arg3 harg3 arg4 harg4 arg5 harg5 hc0 hc1 x0 x1 xs).2.1, y ∈ pc.1.set :=
  View.cover_of_tiledL (aggRunLast c i arg2 harg2 arg3 harg3 arg4 harg4 arg5 harg5 hc0 hc1 x0 x1 xs).2.1 S1024x128.size (by sl_kernel_rfl) y

/-- At k = 0 the accumulator ends at the product added to the zeros just stored. -/
theorem accFirst_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : isFirstK i) (hc1 : ¬isLastK i)
    (x0 : Vec F S1024x2048 .f32) (x1 : Vec F S2048x128 .bf16) :
    View.canon (aggRunFirst c i arg2 harg2 arg3 harg3 arg4 harg4 arg5 harg5 hc0 hc1 x0 x1).1 = k1_pay2 x0 x1 (k1_pay1 (F := F)) := by
  unfold aggRunFirst; dsimp only; sl_unfold_words
  rw [View.canon_cons_unit_zero (S := S1024x128) hz2]
  simp only [View.readAt_eq_ld, harg2.read_unread, harg3.read_unread, View.ld_unit_zero (S := S1024x2048) hz2, View.ld_unit_zero (S := S2048x128) hz2, View.ld_unit_zero (S := S1024x128) hz2, View.readCov_unit_zero (S := S1024x128) _ hz2]

/-- At 0 < k < 7 it ends at the product added to what it held. -/
theorem accMid_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : ¬isLastK i)
    (x0 : Vec F S1024x2048 .f32) (x1 : Vec F S2048x128 .bf16) (xs : Vec F S1024x128 .f32) :
    View.canon (aggRunMid c i arg2 harg2 arg3 harg3 arg4 harg4 arg5 harg5 hc0 hc1 x0 x1 xs).1 = k1_pay2 x0 x1 xs := by
  unfold aggRunMid; dsimp only; sl_unfold_words
  rw [View.canon_unit_zero (S := S1024x128) hz2]
  simp only [View.readAt_eq_ld, harg2.read_unread, harg3.read_unread, harg5.read_unread, View.ld_unit_zero (S := S1024x2048) hz2, View.ld_unit_zero (S := S2048x128) hz2, View.ld_unit_zero (S := S1024x128) hz2, View.readCov_unit_zero (S := S1024x128) _ hz2]

/-- At k = 7 likewise, -/
theorem accLast_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : isLastK i)
    (x0 : Vec F S1024x2048 .f32) (x1 : Vec F S2048x128 .bf16) (xs : Vec F S1024x128 .f32) :
    View.canon (aggRunLast c i arg2 harg2 arg3 harg3 arg4 harg4 arg5 harg5 hc0 hc1 x0 x1 xs).2.1 = k1_pay2 x0 x1 xs := by
  unfold aggRunLast; dsimp only; sl_unfold_words
  rw [View.canon_unit_zero (S := S1024x128) hz2]
  simp only [View.readAt_eq_ld, harg2.read_unread, harg3.read_unread, harg5.read_unread, View.ld_unit_zero (S := S1024x2048) hz2, View.ld_unit_zero (S := S2048x128) hz2, View.ld_unit_zero (S := S1024x128) hz2, View.readCov_unit_zero (S := S1024x128) _ hz2]

/-- and the output buffer receives that same sum, read back from the accumulator. -/
theorem outLast_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : isLastK i)
    (x0 : Vec F S1024x2048 .f32) (x1 : Vec F S2048x128 .bf16) (xs : Vec F S1024x128 .f32) :
    View.canon (aggRunLast c i arg2 harg2 arg3 harg3 arg4 harg4 arg5 harg5 hc0 hc1 x0 x1 xs).1 = k1_pay2 x0 x1 xs := by
  unfold aggRunLast; dsimp only; sl_unfold_words
  rw [View.canon_unit_zero (S := S1024x128) hz2]
  simp only [View.readAt_eq_ld, harg2.read_unread, harg3.read_unread, harg5.read_unread, View.ld_unit_zero (S := S1024x2048) hz2, View.ld_unit_zero (S := S2048x128) hz2, View.ld_unit_zero (S := S1024x128) hz2, View.readCov_unit_zero (S := S1024x128) _ hz2]

/-! ## The accumulator, point by point -/

/-- What the accumulator holds after the body at position `n`. -/
def accAt1 (c : Dev nD) : (n : ℕ) → n < cfg1.N → Vec F S1024x128 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_first (c : Dev nD) (t : Fin cfg1.N) (h : t.val % 8 = 0) :
    accAt1 V c t.val t.isLt = k1_pay2 (iblk1 V c 0 t) (iblk1 V c 1 t) (k1_pay1 (F := F)) := by
  obtain ⟨n, hn⟩ := t
  cases n with
  | zero => rfl
  | succ n => exact if_pos h

theorem accAt1_next (c : Dev nD) (t : Fin cfg1.N) (h : ¬t.val % 8 = 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before the first point the accumulator holds anything; before position `n + 1` what position `n` left. -/
def PhiS1 (c : Dev nD) : (n : ℕ) → n ≤ cfg1.N → sProp 𝕄
  | 0, _ => Pipeline.ΦA spec1 c
  | n + 1, hn => iprop(scopedWith c (owns (c : Thread nD τ) accM fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith c (owns (c : Thread nD τ) accM fullShare (accAt1 V c n hn)) ∗ (∃ r, prngReg c r)) := rfl

theorem PhiS1_pos (c : Dev nD) (n : ℕ) (h : n ≤ cfg1.N) (hz : n ≠ 0) :
    PhiS1 V c n h = iprop(scopedWith c (owns (c : Thread nD τ) accM fullShare (accAt1 V c (n - 1) (by omega))) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the two input buffers hold their blocks; the residue of the point modulo 8 says which case it
    is in; the invariant hands the body the accumulator (at anything before the very first point, else at what the point
    before left) and takes it back at this point's contents; off k = 7 the output buffer goes back as it came, at k = 7
    it comes back holding the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    have hc0 : isFirstK (grid1.coords t) := (isFirstK_iff t).mpr h0
    have hc1 : ¬isLastK (grid1.coords t) := fun h => h1 ((isLastK_iff t).mp h)
    rw [Dat.leavesExact_idle (dat1 V c) 2 t (idleAt1_2 t hc1) (noFlush1_2 t hc1)]
    rw [accAt1_first V c t h0]
    by_cases hz : t.val = 0
    · rw [PhiS1_castSucc V c t, PhiS1_zero V c _ _ hz, PhiA1_eq]
      unfold scopedWith
      iintro ⟨⟨⟨Ha, Hb, Hc, Hd, He, HS⟩, Hg⟩, Ho, ⟨%d0, H0⟩, ⟨%d1, H1⟩, ⟨%d2, H2⟩⟩
      iapply ((aggRunFirst c (grid1.coords t) _ _ _ _ _ _ _ _ hc0 hc1 (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro
          exact (View.read_writes_eq_canon _ _ _ (accCoverFirst c _ _ _ _ _ _ _ _ _ hc0 hc1 _ _)).trans (accFirst_eq c _ _ _ _ _ _ _ _ _ hc0 hc1 _ _)
        iexact Hg
      isplitl [Ho]; · iexact Ho
      isplitl [H0]; · iexact H0
      isplitl [H1]; · iexact H1
      iexists _; iexact H2
    · rw [PhiS1_castSucc V c t, PhiS1_pos V c _ _ hz]
      unfold scopedWith
      iintro ⟨⟨⟨Ha, Hb, Hc, Hd, He, HS⟩, Hg⟩, Ho, ⟨%d0, H0⟩, ⟨%d1, H1⟩, ⟨%d2, H2⟩⟩
      iapply ((aggRunFirst c (grid1.coords t) _ _ _ _ _ _ _ _ hc0 hc1 (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro
          exact (View.read_writes_eq_canon _ _ _ (accCoverFirst c _ _ _ _ _ _ _ _ _ hc0 hc1 _ _)).trans (accFirst_eq c _ _ _ _ _ _ _ _ _ hc0 hc1 _ _)
        iexact Hg
      isplitl [Ho]; · iexact Ho
      isplitl [H0]; · iexact H0
      isplitl [H1]; · iexact H1
      iexists _; iexact H2
  · have hz : t.val ≠ 0 := fun e => h0 (by rw [e])
    have hc0 : ¬isFirstK (grid1.coords t) := fun h => h0 ((isFirstK_iff t).mp h)
    rw [accAt1_next V c t h0]
    rw [PhiS1_castSucc V c t, PhiS1_pos V c _ _ hz]
    unfold scopedWith
    by_cases h1 : t.val % 8 = 7
    · have hc1 : isLastK (grid1.coords t) := (isLastK_iff t).mpr h1
      rw [show (dat1 V c).leavesExact 2 t = owns (c : Thread nD τ) (ms1_2 t) fullShare ((dat1 V c).after 2 t) from by
        unfold Dat.leavesExact; rw [liveAt1_2 t hc1], after1_2, accAt1_next V c t h0]
      iintro ⟨⟨⟨Ha, Hb, Hc, Hd, He, HS⟩, Hg⟩, Ho, ⟨%d0, H0⟩, ⟨%d1, H1⟩, ⟨%d2, H2⟩⟩
      iapply ((aggRunLast c (grid1.coords t) _ _ _ _ _ _ _ _ hc0 hc1 (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro
          exact (View.read_writes_eq_canon _ _ _ (accCoverLast c _ _ _ _ _ _ _ _ _ hc0 hc1 _ _ _)).trans (accLast_eq c _ _ _ _ _ _ _ _ _ hc0 hc1 _ _ _)
        iexact Hg
      isplitl [Ho]; · iexact Ho
      isplitl [H0]; · iexact H0
      isplitl [H1]; · iexact H1
      unfold owns; iexists _; isplitr
      swap; · iexact H2
      ipureintro
      exact (View.read_writes_eq_canon _ _ _ (outCoverLast c _ _ _ _ _ _ _ _ _ hc0 hc1 _ _ _)).trans (outLast_eq c _ _ _ _ _ _ _ _ _ hc0 hc1 _ _ _)
    · have hc1 : ¬isLastK (grid1.coords t) := fun h => h1 ((isLastK_iff t).mp h)
      rw [Dat.leavesExact_idle (dat1 V c) 2 t (idleAt1_2 t hc1) (noFlush1_2 t hc1)]
      iintro ⟨⟨⟨Ha, Hb, Hc, Hd, He, HS⟩, Hg⟩, Ho, ⟨%d0, H0⟩, ⟨%d1, H1⟩, ⟨%d2, H2⟩⟩
      iapply ((aggRunMid c (grid1.coords t) _ _ _ _ _ _ _ _ hc0 hc1 (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro
          exact (View.read_writes_eq_canon _ _ _ (accCoverMid c _ _ _ _ _ _ _ _ _ hc0 hc1 _ _ _)).trans (accMid_eq c _ _ _ _ _ _ _ _ _ hc0 hc1 _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold scopedWith
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.Kernel.Frm

end
-- ==== Proof.KernelWholeRun.lean ====
/-
  The whole program, at any float instance: @main is the projection region followed by the aggregation region, with no
  host operation between or around them. The buffers' contents at the two boundaries are named by folding each region's
  write-backs over what it was entered with: after the projection only `x` has changed, after the aggregation only the
  result. Each region is entered from "every unscoped buffer at the boundary's contents, the generator register at some
  state, nothing owed" and left at the same over the next contents. The run: every weakly fair execution terminates and
  every unscoped buffer ends at the last boundary's contents; the arguments, which no region writes, read back through
  the fold to what they were launched with.
-/
import proofs.«109502_j53240414601890_1_alg».proof.Proof.KernelProjRegion
import proofs.«109502_j53240414601890_1_alg».proof.Proof.KernelAggRegion

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the projection: its arrays at what its write-backs leave, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the aggregation. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## No region writes an argument -/

/-- `inputs`: read by the projection through an input window, bypassed by the aggregation. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

/-- `adj`: bypassed by the projection, read by the aggregation through an input window. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((dat1 (V1 m) c).arrAt_in 0 rfl _).trans (A_eq1 (V1 m) c 0))
    _ = W0 m c (Proc.devRef .tc main_arg1) := W1_of_ne m c main_arg1 (by decide)
    _ = m ((c : Thread nD τ).loc main_arg1) := rfl

/-- `weights`: read by the projection, bypassed by the aggregation. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl

/-- The result buffer ends at what the aggregation's write-backs leave in it. -/
theorem W2_main_v1 (c : Dev nD) : W2 m c (Proc.devRef .tc main_v1) = (dat1 (V1 m) c).arrAt 2 cfg1.N := W2_arr m c 2

/-- `x` as the aggregation finds it is what the projection's write-backs left. -/
theorem V1_main_v0 (c : Dev nD) : V1 m c main_v0 = (dat0 (V0 m) c).arrAt 2 cfg0.N := W1_arr m c 2
/-- `adj` as the aggregation finds it is the launch contents. -/
theorem V1_main_arg1 (c : Dev nD) : V1 m c main_arg1 = m ((c : Thread nD τ).loc main_arg1) := W1_of_ne m c main_arg1 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The projection: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation: entered from `W1`, left at `W2`; its invariant is the accumulator's, which starts and ends as the
    plain "scoped buffers at anything" the boundary provides and takes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (V1 m) c
    unfold Pipeline.ΦA at h
    show (dat1 (V1 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer of every core ends at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- The run with the result named: the result buffer ends at what the aggregation's write-backs leave, the arguments as
    launched. -/
theorem run_valued : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.Kernel.Frm

end
-- ==== Proof.ProjRegion.lean ====
/-
  The projection kernel `x = inputs @ weights` as one pipelined region, at any float instance: eight grid points,
  point `t` reading rows [2048 t, 2048 (t+1)) of `inputs` and the whole of `weights` (fetched once, at the first
  point) and writing the same rows of `x`. Stated at a parameter `V`, the contents of the core's buffers when the
  region is entered: what each window's staging buffer holds before and after the body at each point, the body's
  triple, and the body obligation of the pipeline's proof data.
-/
import proofs.«109502_j53240414601890_1_alg».proof.Proof.Gen.KernelIdeal.Launch
import proofs.«109502_j53240414601890_1_alg».proof.Proof.Gen.KernelIdeal.Skeleton
import proofs.«109502_j53240414601890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `inputs` a point reads are in its staging buffer when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- `weights` is fetched at the first point only; its block index never moves, so the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body: one whole-block store -/

abbrev rIn0 : Rect S2048x512 := Rect.unit (s := S2048x512) ![0, 0] S2048x512.size inb_S2048x512_S2048x512_0_0
abbrev rW0 : Rect S512x128 := Rect.unit (s := S512x128) ![0, 0] S512x128.size inb_S512x128_S512x128_0_0
abbrev rOut0 : Rect S2048x128 := Rect.unit (s := S2048x128) ![0, 0] S2048x128.size inb_S2048x128_S2048x128_0_0

/-- What the body leaves in the output's staging buffer: the product of the two input blocks, stored whole. -/
def projOut (x0 : Vec F S2048x512 .f32) (x1 : Vec F S512x128 .f32) : Vec F S2048x128 .bf16 :=
  View.canon [⟨rOut0, k0_pay1 (View.ld x0 rIn0) (View.ld x1 rW0)⟩]

theorem projCover (p0 : Vec F S2048x128 .bf16) (y : S2048x128.Idx) :
    ∃ pc ∈ ([⟨rOut0, p0⟩] : List (View.Piece (Elt F) S2048x128 .bf16)), y ∈ pc.1.set :=
  View.cover_of_tiled [⟨rOut0, p0⟩] S2048x128.size (by rfl) y

set_option maxHeartbeats 1000000 in
/-- The body on whole staging memrefs: the inputs come back as they were, the output's buffer holds `projOut` of them. -/
theorem sound_proj (c : Dev nD) (E : Set ℕ) (i : grid0.Coords) (arg1 : Memref sig .tc .vmem S2048x512 .f32) (harg1 : arg1.IsWhole)
    (arg2 : Memref sig .tc .vmem S512x128 .f32) (harg2 : arg2.IsWhole) (arg3 : Memref sig .tc .vmem S2048x128 .bf16) (harg3 : arg3.IsWhole)
    (x0 : Vec F S2048x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## The pipeline's proof data -/

/-- Region 0's proof data on core `c`: the arrays as the region finds them; after the body at point `t` each input's
    buffer still at its block and the output's at the product of the two blocks; the invariant is the scoped buffers
    the kernel does not use and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => projOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.AggRuns.lean ====
/-
  The aggregation kernel `out = adj @ x` as one pipelined region of 16 × 8 grid points, at any float instance: point
  (i, k) reads block (i, k) of `adj` (1024 × 2048) and block k of `x` (2048 × 128) and adds their product into a
  1024 × 128 accumulator kept in scratch memory across the eight k-steps of a row block: the accumulator is zeroed at
  k = 0 and copied to the output block at k = 7. This module: the blocks, the two conditions decided over the grid,
  where the output window is idle, and the body's run in each of the three cases the grid meets (k = 0; 0 < k < 7;
  k = 7), each leaving the accumulator (and at k = 7 the output buffer) as a list of stored pieces.
-/
import proofs.«109502_j53240414601890_1_alg».proof.Proof.Gen.KernelIdeal.Launch
import proofs.«109502_j53240414601890_1_alg».proof.Proof.Gen.KernelIdeal.Skeleton
import proofs.«109502_j53240414601890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of `adj` a point reads is in its staging buffer when the body starts. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So is the block of `x`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the grid point -/

/-- "This is the first k-step" (the accumulator is zeroed), as the body computes it from the grid coordinates. -/
abbrev isFirstK (i : grid1.Coords) : Prop := (Scalar.cmpi .ne (Scalar.extui (Scalar.cmpi .eq (BitVec.ofNat 32 (i 1).val) 0#32)) 0#32) = 1#1
theorem isFirstK_iff : ∀ t : Fin cfg1.N, isFirstK (grid1.coords t) ↔ t.val % 8 = 0 :=
  (by decide +kernel : ∀ t : Fin grid1.N, isFirstK (grid1.coords t) ↔ t.val % 8 = 0)

/-- "This is the last k-step" (the accumulator is copied out). -/
abbrev isLastK (i : grid1.Coords) : Prop := k1_cond2 i = 1#1
theorem isLastK_iff : ∀ t : Fin cfg1.N, isLastK (grid1.coords t) ↔ t.val % 8 = 7 :=
  (by decide +kernel : ∀ t : Fin grid1.N, isLastK (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last k-step the body stores nothing into the output window, -/
theorem idleAt1_2 : ∀ t : Fin cfg1.N, ¬isLastK (grid1.coords t) → cfg1.idle 2 (grid1.coords t) = true := by decide +kernel
/-- and the pipeline does not write its block back; -/
theorem noFlush1_2 : ∀ t : Fin cfg1.N, ¬isLastK (grid1.coords t) → (cfg1.win 2).flush t = false := by decide +kernel
/-- on the last k-step it stores the whole block. -/
theorem liveAt1_2 : ∀ t : Fin cfg1.N, isLastK (grid1.coords t) → cfg1.idle 2 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev accM : Memref sig .tc .vmem S1024x128 .f32 := Memref.whole cc1_scratch0
abbrev accV : View sig .tc .vmem S1024x128 .f32 := accM.view
/-- One staging buffer of the output window, through which its contents are stated. -/
abbrev outV : View sig .tc .vmem S1024x128 .f32 := (Memref.whole cc1_stg2_0 : Memref sig .tc .vmem S1024x128 .f32).view

/-- The core's scoped buffers that are no staging buffer of this region: the projection kernel's five staging buffers,
    each at some contents (the body never touches them), beside what is said of the accumulator (`S`). -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The class invariant of this region, spelt out: those five buffers, the accumulator at some contents, the generator
    register at some state. -/
theorem PhiA1_eq (c : Dev nD) :
    (Pipeline.ΦA spec1 c : sProp 𝕄)
      = iprop(scopedWith c iprop(∃ d, owns (c : Thread nD τ) accM fullShare d) ∗ (∃ r, prngReg c r)) := by
  unfold Pipeline.ΦA scopedWith; rw [scopedRest1_eq]; simp only [accM, owns_whole]; try rfl

/-! ## The body's run, case by case -/

set_option maxHeartbeats 1000000 in
/-- First k-step (k = 0, not the last): the accumulator, found at anything, is zeroed and the product added; the output
    buffer is handed back untouched. The accumulator's stored pieces (last first) are the witness the run finds. -/
noncomputable def aggRunFirst (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : isFirstK i) (hc1 : ¬isLastK i)
    (x0 : Vec F S1024x2048 .f32) (x1 : Vec F S2048x128 .bf16) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A middle k-step (0 < k < 7): the product is added to what the step before left in the accumulator (`xs`); the
    output buffer is handed back untouched. -/
noncomputable def aggRunMid (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : ¬isLastK i)
    (x0 : Vec F S1024x2048 .f32) (x1 : Vec F S2048x128 .bf16) (xs : Vec F S1024x128 .f32) :
    { LS : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- The last k-step (k = 7): the product is added to what the step before left, and the sum is copied into the output
    buffer (found at anything). The pieces stored into the output buffer and into the accumulator are the witnesses. -/
noncomputable def aggRunLast (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : isLastK i)
    (x0 : Vec F S1024x2048 .f32) (x1 : Vec F S2048x128 .bf16) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frm

end
-- ==== Proof.AggRegion.lean ====
/-
  The aggregation region's proof data and body obligation, at any float instance and at a parameter `V` (the buffers'
  contents when the region is entered). The accumulator after point t is given by a recursion on the point: at a point
  with k = 0 it is the product of the point's two blocks added to zeros, at any other point that product added to what
  the point before left. The region's invariant keeps the accumulator at exactly that between points; the output
  window's staging buffer receives the accumulator at the points with k = 7 and is left alone elsewhere.
-/
import proofs.«109502_j53240414601890_1_alg».proof.Proof.AggRuns
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-! ## What each case's stores amount to -/

theorem accCoverFirst (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : isFirstK i) (hc1 : ¬isLastK i)
    (x0 : Vec F S1024x2048 .f32) (x1 : Vec F S2048x128 .bf16) (y : S1024x128.Idx) :
    ∃ pc ∈ (aggRunFirst c i arg2 harg2 arg3 harg3 arg4 harg4 arg5 harg5 hc0 hc1 x0 x1).1, y ∈ pc.1.set :=
  View.cover_of_tiledL (aggRunFirst c i arg2 harg2 arg3 harg3 arg4 harg4 arg5 harg5 hc0 hc1 x0 x1).1 S1024x128.size (by sl_kernel_rfl) y

theorem accCoverMid (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : ¬isLastK i)
    (x0 : Vec F S1024x2048 .f32) (x1 : Vec F S2048x128 .bf16) (xs : Vec F S1024x128 .f32) (y : S1024x128.Idx) :
    ∃ pc ∈ (aggRunMid c i arg2 harg2 arg3 harg3 arg4 harg4 arg5 harg5 hc0 hc1 x0 x1 xs).1, y ∈ pc.1.set :=
  View.cover_of_tiledL (aggRunMid c i arg2 harg2 arg3 harg3 arg4 harg4 arg5 harg5 hc0 hc1 x0 x1 xs).1 S1024x128.size (by sl_kernel_rfl) y

theorem outCoverLast (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : isLastK i)
    (x0 : Vec F S1024x2048 .f32) (x1 : Vec F S2048x128 .bf16) (xs : Vec F S1024x128 .f32) (y : S1024x128.Idx) :
    ∃ pc ∈ (aggRunLast c i arg2 harg2 arg3 harg3 arg4 harg4 arg5 harg5 hc0 hc1 x0 x1 xs).1, y ∈ pc.1.set :=
  View.cover_of_tiledL (aggRunLast c i arg2 harg2 arg3 harg3 arg4 harg4 arg5 harg5 hc0 hc1 x0 x1 xs).1 S1024x128.size (by sl_kernel_rfl) y

theorem accCoverLast (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : isLastK i)
    (x0 : Vec F S1024x2048 .f32) (x1 : Vec F S2048x128 .bf16) (xs : Vec F S1024x128 .f32) (y : S1024x128.Idx) :
    ∃ pc ∈ (aggRunLast c i arg2 harg2 arg3 harg3 arg4 harg4 arg5 harg5 hc0 hc1 x0 x1 xs).2.1, y ∈ pc.1.set :=
  View.cover_of_tiledL (aggRunLast c i arg2 harg2 arg3 harg3 arg4 harg4 arg5 harg5 hc0 hc1 x0 x1 xs).2.1 S1024x128.size (by sl_kernel_rfl) y

/-- At k = 0 the accumulator ends at the product added to the zeros just stored. -/
theorem accFirst_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : isFirstK i) (hc1 : ¬isLastK i)
    (x0 : Vec F S1024x2048 .f32) (x1 : Vec F S2048x128 .bf16) :
    View.canon (aggRunFirst c i arg2 harg2 arg3 harg3 arg4 harg4 arg5 harg5 hc0 hc1 x0 x1).1 = k1_pay2 x0 x1 (k1_pay1 (F := F)) := by
  unfold aggRunFirst; dsimp only; sl_unfold_words
  rw [View.canon_cons_unit_zero (S := S1024x128) hz2]
  simp only [View.readAt_eq_ld, harg2.read_unread, harg3.read_unread, View.ld_unit_zero (S := S1024x2048) hz2, View.ld_unit_zero (S := S2048x128) hz2, View.ld_unit_zero (S := S1024x128) hz2, View.readCov_unit_zero (S := S1024x128) _ hz2]

/-- At 0 < k < 7 it ends at the product added to what it held. -/
theorem accMid_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : ¬isLastK i)
    (x0 : Vec F S1024x2048 .f32) (x1 : Vec F S2048x128 .bf16) (xs : Vec F S1024x128 .f32) :
    View.canon (aggRunMid c i arg2 harg2 arg3 harg3 arg4 harg4 arg5 harg5 hc0 hc1 x0 x1 xs).1 = k1_pay2 x0 x1 xs := by
  unfold aggRunMid; dsimp only; sl_unfold_words
  rw [View.canon_unit_zero (S := S1024x128) hz2]
  simp only [View.readAt_eq_ld, harg2.read_unread, harg3.read_unread, harg5.read_unread, View.ld_unit_zero (S := S1024x2048) hz2, View.ld_unit_zero (S := S2048x128) hz2, View.ld_unit_zero (S := S1024x128) hz2, View.readCov_unit_zero (S := S1024x128) _ hz2]

/-- At k = 7 likewise, -/
theorem accLast_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : isLastK i)
    (x0 : Vec F S1024x2048 .f32) (x1 : Vec F S2048x128 .bf16) (xs : Vec F S1024x128 .f32) :
    View.canon (aggRunLast c i arg2 harg2 arg3 harg3 arg4 harg4 arg5 harg5 hc0 hc1 x0 x1 xs).2.1 = k1_pay2 x0 x1 xs := by
  unfold aggRunLast; dsimp only; sl_unfold_words
  rw [View.canon_unit_zero (S := S1024x128) hz2]
  simp only [View.readAt_eq_ld, harg2.read_unread, harg3.read_unread, harg5.read_unread, View.ld_unit_zero (S := S1024x2048) hz2, View.ld_unit_zero (S := S2048x128) hz2, View.ld_unit_zero (S := S1024x128) hz2, View.readCov_unit_zero (S := S1024x128) _ hz2]

/-- and the output buffer receives that same sum, read back from the accumulator. -/
theorem outLast_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬isFirstK i) (hc1 : isLastK i)
    (x0 : Vec F S1024x2048 .f32) (x1 : Vec F S2048x128 .bf16) (xs : Vec F S1024x128 .f32) :
    View.canon (aggRunLast c i arg2 harg2 arg3 harg3 arg4 harg4 arg5 harg5 hc0 hc1 x0 x1 xs).1 = k1_pay2 x0 x1 xs := by
  unfold aggRunLast; dsimp only; sl_unfold_words
  rw [View.canon_unit_zero (S := S1024x128) hz2]
  simp only [View.readAt_eq_ld, harg2.read_unread, harg3.read_unread, harg5.read_unread, View.ld_unit_zero (S := S1024x2048) hz2, View.ld_unit_zero (S := S2048x128) hz2, View.ld_unit_zero (S := S1024x128) hz2, View.readCov_unit_zero (S := S1024x128) _ hz2]

/-! ## The accumulator, point by point -/

/-- What the accumulator holds after the body at position `n`. -/
def accAt1 (c : Dev nD) : (n : ℕ) → n < cfg1.N → Vec F S1024x128 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_first (c : Dev nD) (t : Fin cfg1.N) (h : t.val % 8 = 0) :
    accAt1 V c t.val t.isLt = k1_pay2 (iblk1 V c 0 t) (iblk1 V c 1 t) (k1_pay1 (F := F)) := by
  obtain ⟨n, hn⟩ := t
  cases n with
  | zero => rfl
  | succ n => exact if_pos h

theorem accAt1_next (c : Dev nD) (t : Fin cfg1.N) (h : ¬t.val % 8 = 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before the first point the accumulator holds anything; before position `n + 1` what position `n` left. -/
def PhiS1 (c : Dev nD) : (n : ℕ) → n ≤ cfg1.N → sProp 𝕄
  | 0, _ => Pipeline.ΦA spec1 c
  | n + 1, hn => iprop(scopedWith c (owns (c : Thread nD τ) accM fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith c (owns (c : Thread nD τ) accM fullShare (accAt1 V c n hn)) ∗ (∃ r, prngReg c r)) := rfl

theorem PhiS1_pos (c : Dev nD) (n : ℕ) (h : n ≤ cfg1.N) (hz : n ≠ 0) :
    PhiS1 V c n h = iprop(scopedWith c (owns (c : Thread nD τ) accM fullShare (accAt1 V c (n - 1) (by omega))) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the two input buffers hold their blocks; the residue of the point modulo 8 says which case it
    is in; the invariant hands the body the accumulator (at anything before the very first point, else at what the point
    before left) and takes it back at this point's contents; off k = 7 the output buffer goes back as it came, at k = 7
    it comes back holding the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    have hc0 : isFirstK (grid1.coords t) := (isFirstK_iff t).mpr h0
    have hc1 : ¬isLastK (grid1.coords t) := fun h => h1 ((isLastK_iff t).mp h)
    rw [Dat.leavesExact_idle (dat1 V c) 2 t (idleAt1_2 t hc1) (noFlush1_2 t hc1)]
    rw [accAt1_first V c t h0]
    by_cases hz : t.val = 0
    · rw [PhiS1_castSucc V c t, PhiS1_zero V c _ _ hz, PhiA1_eq]
      unfold scopedWith
      iintro ⟨⟨⟨Ha, Hb, Hc, Hd, He, HS⟩, Hg⟩, Ho, ⟨%d0, H0⟩, ⟨%d1, H1⟩, ⟨%d2, H2⟩⟩
      iapply ((aggRunFirst c (grid1.coords t) _ _ _ _ _ _ _ _ hc0 hc1 (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro
          exact (View.read_writes_eq_canon _ _ _ (accCoverFirst c _ _ _ _ _ _ _ _ _ hc0 hc1 _ _)).trans (accFirst_eq c _ _ _ _ _ _ _ _ _ hc0 hc1 _ _)
        iexact Hg
      isplitl [Ho]; · iexact Ho
      isplitl [H0]; · iexact H0
      isplitl [H1]; · iexact H1
      iexists _; iexact H2
    · rw [PhiS1_castSucc V c t, PhiS1_pos V c _ _ hz]
      unfold scopedWith
      iintro ⟨⟨⟨Ha, Hb, Hc, Hd, He, HS⟩, Hg⟩, Ho, ⟨%d0, H0⟩, ⟨%d1, H1⟩, ⟨%d2, H2⟩⟩
      iapply ((aggRunFirst c (grid1.coords t) _ _ _ _ _ _ _ _ hc0 hc1 (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro
          exact (View.read_writes_eq_canon _ _ _ (accCoverFirst c _ _ _ _ _ _ _ _ _ hc0 hc1 _ _)).trans (accFirst_eq c _ _ _ _ _ _ _ _ _ hc0 hc1 _ _)
        iexact Hg
      isplitl [Ho]; · iexact Ho
      isplitl [H0]; · iexact H0
      isplitl [H1]; · iexact H1
      iexists _; iexact H2
  · have hz : t.val ≠ 0 := fun e => h0 (by rw [e])
    have hc0 : ¬isFirstK (grid1.coords t) := fun h => h0 ((isFirstK_iff t).mp h)
    rw [accAt1_next V c t h0]
    rw [PhiS1_castSucc V c t, PhiS1_pos V c _ _ hz]
    unfold scopedWith
    by_cases h1 : t.val % 8 = 7
    · have hc1 : isLastK (grid1.coords t) := (isLastK_iff t).mpr h1
      rw [show (dat1 V c).leavesExact 2 t = owns (c : Thread nD τ) (ms1_2 t) fullShare ((dat1 V c).after 2 t) from by
        unfold Dat.leavesExact; rw [liveAt1_2 t hc1], after1_2, accAt1_next V c t h0]
      iintro ⟨⟨⟨Ha, Hb, Hc, Hd, He, HS⟩, Hg⟩, Ho, ⟨%d0, H0⟩, ⟨%d1, H1⟩, ⟨%d2, H2⟩⟩
      iapply ((aggRunLast c (grid1.coords t) _ _ _ _ _ _ _ _ hc0 hc1 (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro
          exact (View.read_writes_eq_canon _ _ _ (accCoverLast c _ _ _ _ _ _ _ _ _ hc0 hc1 _ _ _)).trans (accLast_eq c _ _ _ _ _ _ _ _ _ hc0 hc1 _ _ _)
        iexact Hg
      isplitl [Ho]; · iexact Ho
      isplitl [H0]; · iexact H0
      isplitl [H1]; · iexact H1
      unfold owns; iexists _; isplitr
      swap; · iexact H2
      ipureintro
      exact (View.read_writes_eq_canon _ _ _ (outCoverLast c _ _ _ _ _ _ _ _ _ hc0 hc1 _ _ _)).trans (outLast_eq c _ _ _ _ _ _ _ _ _ hc0 hc1 _ _ _)
    · have hc1 : ¬isLastK (grid1.coords t) := fun h => h1 ((isLastK_iff t).mp h)
      rw [Dat.leavesExact_idle (dat1 V c) 2 t (idleAt1_2 t hc1) (noFlush1_2 t hc1)]
      iintro ⟨⟨⟨Ha, Hb, Hc, Hd, He, HS⟩, Hg⟩, Ho, ⟨%d0, H0⟩, ⟨%d1, H1⟩, ⟨%d2, H2⟩⟩
      iapply ((aggRunMid c (grid1.coords t) _ _ _ _ _ _ _ _ hc0 hc1 (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro
          exact (View.read_writes_eq_canon _ _ _ (accCoverMid c _ _ _ _ _ _ _ _ _ hc0 hc1 _ _ _)).trans (accMid_eq c _ _ _ _ _ _ _ _ _ hc0 hc1 _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold scopedWith
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.KernelIdeal.Frm

end
-- ==== Proof.WholeRun.lean ====
/-
  The whole program, at any float instance: @main is the projection region followed by the aggregation region, with no
  host operation between or around them. The buffers' contents at the two boundaries are named by folding each region's
  write-backs over what it was entered with: after the projection only `x` has changed, after the aggregation only the
  result. Each region is entered from "every unscoped buffer at the boundary's contents, the generator register at some
  state, nothing owed" and left at the same over the next contents. The run: every weakly fair execution terminates and
  every unscoped buffer ends at the last boundary's contents; the arguments, which no region writes, read back through
  the fold to what they were launched with.
-/
import proofs.«109502_j53240414601890_1_alg».proof.Proof.ProjRegion
import proofs.«109502_j53240414601890_1_alg».proof.Proof.AggRegion

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the projection: its arrays at what its write-backs leave, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the aggregation. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## No region writes an argument -/

/-- `inputs`: read by the projection through an input window, bypassed by the aggregation. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

/-- `adj`: bypassed by the projection, read by the aggregation through an input window. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((dat1 (V1 m) c).arrAt_in 0 rfl _).trans (A_eq1 (V1 m) c 0))
    _ = W0 m c (Proc.devRef .tc main_arg1) := W1_of_ne m c main_arg1 (by decide)
    _ = m ((c : Thread nD τ).loc main_arg1) := rfl

/-- `weights`: read by the projection, bypassed by the aggregation. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl

/-- The result buffer ends at what the aggregation's write-backs leave in it. -/
theorem W2_main_v1 (c : Dev nD) : W2 m c (Proc.devRef .tc main_v1) = (dat1 (V1 m) c).arrAt 2 cfg1.N := W2_arr m c 2

/-- `x` as the aggregation finds it is what the projection's write-backs left. -/
theorem V1_main_v0 (c : Dev nD) : V1 m c main_v0 = (dat0 (V0 m) c).arrAt 2 cfg0.N := W1_arr m c 2
/-- `adj` as the aggregation finds it is the launch contents. -/
theorem V1_main_arg1 (c : Dev nD) : V1 m c main_arg1 = m ((c : Thread nD τ).loc main_arg1) := W1_of_ne m c main_arg1 (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The projection: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation: entered from `W1`, left at `W2`; its invariant is the accumulator's, which starts and ends as the
    plain "scoped buffers at anything" the boundary provides and takes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (V1 m) c
    unfold Pipeline.ΦA at h
    show (dat1 (V1 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer of every core ends at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- The run with the result named: the result buffer ends at what the aggregation's write-backs leave, the arguments as
    launched. -/
theorem run_valued : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.KernelIdeal.Frm

end
-- ==== Proof.PayloadAt.lean ====
/-
  What the two kernel bodies compute, at the ideal instance and at an index. A change of float format is the identity
  there, a cast to the same shape is the identity, and the matrix unit's product into a zero accumulator is the plain sum
  over the contracted axis. So the projection body's stored value at (p, q) is Σ_d a(p, d) · b(d, q), the aggregation
  body's is acc(p, q) + Σ_k a(p, k) · b(k, q), and the value that resets the accumulator is 0.
-/
import proofs.«109502_j53240414601890_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.ValueIdx
open Cert.KernelIdeal Cert.KernelIdeal.Gen

theorem lhs_proj_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhs_proj_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem rhs_proj_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem rhs_proj_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl
/-- The left operand's index at output index `i` and contraction index `k`: (row of `i`, `k`). -/
abbrev lidx_proj (i : S2048x128.Idx) (k : Fin 512) : S2048x512.Idx := fun a => match a with
  | ⟨0, _⟩ => ⟨(i 0).val, (i 0).isLt⟩
  | ⟨1, _⟩ => ⟨k.val, k.isLt⟩
/-- The right operand's: (`k`, column of `i`). -/
abbrev ridx_proj (i : S2048x128.Idx) (k : Fin 512) : S512x128.Idx := fun a => match a with
  | ⟨0, _⟩ => ⟨k.val, k.isLt⟩
  | ⟨1, _⟩ => ⟨(i 1).val, (i 1).isLt⟩
/-- The matrix unit's product into a zero accumulator, at an index, is the sum over the contracted axis. -/
theorem mm_proj_apply (l : FVec Ideal S2048x512 .bf16) (r : FVec Ideal S512x128 .bf16) (i : S2048x128.Idx) :
    matmul dot_S2048x512_S512x128_S2048x128_1_0_0_1_n_n none l r (constant S2048x128 .f32 0x00000000#32) i = ∑ k : Fin 512, l (lidx_proj i k) * r (ridx_proj i k) := by
  show FloatOps.matmul dot_S2048x512_S512x128_S2048x128_1_0_0_1_n_n none l r (constant S2048x128 .f32 0x00000000#32) i = _
  rw [Ideal.matmul_constant_zero_apply, ← Equiv.sum_comp (ValueIdx.contrEquiv1 dot_S2048x512_S512x128_S2048x128_1_0_0_1_n_n 512 rfl rfl).symm]
  refine Finset.sum_congr rfl fun k _ => ?_
  have hk := ValueIdx.contrEquiv1_symm_val dot_S2048x512_S512x128_S2048x128_1_0_0_1_n_n 512 rfl rfl k
  have el : dot_S2048x512_S512x128_S2048x128_1_0_0_1_n_n.lhsIdx i ((ValueIdx.contrEquiv1 dot_S2048x512_S512x128_S2048x128_1_0_0_1_n_n 512 rfl rfl).symm k) = lidx_proj i k := funext fun a => Fin.ext (by
    match a with
    | ⟨0, _⟩ => exact lhs_proj_0 _ _
    | ⟨1, _⟩ => exact (lhs_proj_1 _ _).trans hk)
  have er : dot_S2048x512_S512x128_S2048x128_1_0_0_1_n_n.rhsIdx i ((ValueIdx.contrEquiv1 dot_S2048x512_S512x128_S2048x128_1_0_0_1_n_n 512 rfl rfl).symm k) = ridx_proj i k := funext fun a => Fin.ext (by
    match a with
    | ⟨0, _⟩ => exact (rhs_proj_0 _ _).trans hk
    | ⟨1, _⟩ => exact rhs_proj_1 _ _)
  rw [el, er]

theorem lhs_agg_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_agg_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_agg_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_agg_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl
/-- The left operand's index at output index `i` and contraction index `k`: (row of `i`, `k`). -/
abbrev lidx_agg (i : S1024x128.Idx) (k : Fin 2048) : S1024x2048.Idx := fun a => match a with
  | ⟨0, _⟩ => ⟨(i 0).val, (i 0).isLt⟩
  | ⟨1, _⟩ => ⟨k.val, k.isLt⟩
/-- The right operand's: (`k`, column of `i`). -/
abbrev ridx_agg (i : S1024x128.Idx) (k : Fin 2048) : S2048x128.Idx := fun a => match a with
  | ⟨0, _⟩ => ⟨k.val, k.isLt⟩
  | ⟨1, _⟩ => ⟨(i 1).val, (i 1).isLt⟩
/-- The matrix unit's product into a zero accumulator, at an index, is the sum over the contracted axis. -/
theorem mm_agg_apply (l : FVec Ideal S1024x2048 .bf16) (r : FVec Ideal S2048x128 .bf16) (i : S1024x128.Idx) :
    matmul dot_S1024x2048_S2048x128_S1024x128_1_0_0_1_n_n none l r (constant S1024x128 .f32 0x00000000#32) i = ∑ k : Fin 2048, l (lidx_agg i k) * r (ridx_agg i k) := by
  show FloatOps.matmul dot_S1024x2048_S2048x128_S1024x128_1_0_0_1_n_n none l r (constant S1024x128 .f32 0x00000000#32) i = _
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx i ((ValueIdx.contrEquiv1 dot_S1024x2048_S2048x128_S1024x128_1_0_0_1_n_n 2048 rfl rfl).symm k) = lidx_agg i k := funext fun a => Fin.ext (by
    match a with
    | ⟨0, _⟩ => exact lhs_agg_0 _ _
    | ⟨1, _⟩ => exact (lhs_agg_1 _ _).trans hk)
  have er : dot_S1024x2048_S2048x128_S1024x128_1_0_0_1_n_n.rhsIdx i ((ValueIdx.contrEquiv1 dot_S1024x2048_S2048x128_S1024x128_1_0_0_1_n_n 2048 rfl rfl).symm k) = ridx_agg i k := funext fun a => Fin.ext (by
    match a with
    | ⟨0, _⟩ => exact (rhs_agg_0 _ _).trans hk
    | ⟨1, _⟩ => exact rhs_agg_1 _ _)
  rw [el, er]

/-- The projection body's stored value at an index. -/
theorem proj_pay_apply (x0 : Vec Ideal S2048x512 .f32) (x1 : Vec Ideal S512x128 .f32) (i : S2048x128.Idx) :
    k0_pay1 (F := Ideal) x0 x1 i = ∑ d : Fin 512, x0 (lidx_proj i d) * x1 (ridx_proj i d) :=
  mm_proj_apply x0 x1 i

/-- The value that resets the accumulator is zero everywhere. -/
theorem zero_pay_apply (i : S1024x128.Idx) : k1_pay1 (F := Ideal) i = 0 := by
  unfold k1_pay1
  rw [shapeCast_self]
  exact Ideal.ofBits_zero_f32

/-- The aggregation body's stored value at an index: what the accumulator held plus the block product. -/
theorem agg_pay_apply (x0 : Vec Ideal S1024x2048 .f32) (x1 : Vec Ideal S2048x128 .bf16) (acc : Vec Ideal S1024x128 .f32) (i : S1024x128.Idx) :
    k1_pay2 (F := Ideal) x0 x1 acc i = acc i + ∑ k : Fin 2048, x0 (lidx_agg i k) * x1 (ridx_agg i k) := by
  unfold k1_pay2
  rw [shapeCast_self, shapeCast_self]
  exact congrArg (acc i + ·) (mm_agg_apply x0 x1 i)

end Cert.KernelIdeal.Val

end
-- ==== Proof.Spec.lean ====
/-
  What the program computes, as plain sums over the extended reals: `x = inputs · weights` and `out = adj · x`, entry by
  entry; and the one regrouping the blocked kernel needs: a sum over 16384 terms is the sum, over eight consecutive
  blocks, of each block's 2048 terms (associativity and commutativity of + only, so no finiteness is asked).
-/
import Idealize.ShloMosaic.PureOps.Ideal
import Idealize.ShloMosaic.Lib.ValueIdx
import Mathlib.Algebra.BigOperators.Fin

noncomputable section

namespace Cert.KernelIdeal.Spec

open Idealize.ShloMosaic Idealize.ShloMosaic.ValueIdx

/-- Entry (r, q) of `inputs · weights`. -/
def projSpec (inp : (⟨2, ![16384, 512]⟩ : Shape).Idx → EReal) (w : (⟨2, ![512, 128]⟩ : Shape).Idx → EReal)
    (r : Fin 16384) (q : Fin 128) : EReal :=
  ∑ d : Fin 512, inp (ix2 r d) * w (ix2 d q)

/-- Entry (r, q) of `adj · x`. -/
def aggSpec (adj : (⟨2, ![16384, 16384]⟩ : Shape).Idx → EReal) (x : (⟨2, ![16384, 128]⟩ : Shape).Idx → EReal)
    (r : Fin 16384) (q : Fin 128) : EReal :=
  ∑ k : Fin 16384, adj (ix2 r k) * x (ix2 k q)

/-- `x` as an array. -/
def projArr (inp : (⟨2, ![16384, 512]⟩ : Shape).Idx → EReal) (w : (⟨2, ![512, 128]⟩ : Shape).Idx → EReal) :
    (⟨2, ![16384, 128]⟩ : Shape).Idx → EReal :=
  fun j => projSpec inp w (j 0) (j 1)

/-- The result as an array. -/
def aggArr (adj : (⟨2, ![16384, 16384]⟩ : Shape).Idx → EReal) (x : (⟨2, ![16384, 128]⟩ : Shape).Idx → EReal) :
    (⟨2, ![16384, 128]⟩ : Shape).Idx → EReal :=
  fun j => aggSpec adj x (j 0) (j 1)

/-- A sum over 16384 consecutive naturals, grouped into eight blocks of 2048. -/
theorem sum_blocks8 {β : Type*} [AddCommMonoid β] (f : ℕ → β) :
    ∑ k : Fin 16384, f k.val = ∑ s ∈ Finset.range 8, ∑ kk : Fin 2048, f (2048 * s + kk.val) := by
  have e : ∑ k : Fin (8 * 2048), f k.val = ∑ p : Fin 8 × Fin 2048, f (finProdFinEquiv p).val :=
    (Equiv.sum_comp finProdFinEquiv (fun k : Fin (8 * 2048) => f k.val)).symm
  rw [Fintype.sum_prod_type] at e
  rw [← Fin.sum_univ_eq_sum_range (fun s => ∑ kk : Fin 2048, f (2048 * s + kk.val)) 8]
  refine e.trans (Finset.sum_congr rfl fun a _ => Finset.sum_congr rfl fun b _ => ?_)
  rw [finProdFinEquiv_apply_val, add_comm]

end Cert.KernelIdeal.Spec

end
-- ==== Proof.ProjValue.lean ====
/-
  What the projection region leaves in `x`, at the ideal instance: `inputs · weights`, entry by entry. Point t writes
  rows [2048 t, 2048 (t+1)) of `x`; the block it writes is the body's product of rows [2048 t, 2048 (t+1)) of
  `inputs` with the whole of `weights`, which at row p and column q is Σ_d inputs(2048 t + p, d) · weights(d, q): the
  same rows of the one whole-array function. The eight row blocks cover the array.
-/
import proofs.«109502_j53240414601890_1_alg».proof.Proof.ProjRegion
import proofs.«109502_j53240414601890_1_alg».proof.Proof.PayloadAt
import proofs.«109502_j53240414601890_1_alg».proof.Proof.Spec
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.KernelIdeal.Spec

variable (V : (c : Dev nD) → (b : Ref sig .tc) → Buf (Elt Ideal) ((c : Thread nD τ).loc b))

theorem hz : (![0, 0] : Fin 2 → Nat) = fun _ => 0 := funext fun a => by fin_cases a <;> rfl

/-- `x` as an array of the buffer's own type. -/
abbrev xArr (a0 : S16384x512.Idx → Elt Ideal .f32) (a2 : S512x128.Idx → Elt Ideal .f32) : S16384x128.Idx → Elt Ideal .bf16 :=
  fun i => projSpec a0 a2 (i 0) (i 1)

/-- The printed index maps over the eight points: rows move with the point, everything else stays at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `inputs · weights`. -/
theorem proj_flushed (c : Dev nD) (t : Fin cfg0.N) :
    (dat0 V c).flushed 2 t = ((cfg0.win 2).blk t).view.read (Elt Ideal) (xArr (V c main_arg0) (V c main_arg2)) := by
  show (cfg0.win 2).cut (grid0.coords t) ((dat0 V c).after 2 t) = _
  rw [after0_2]
  unfold projOut
  rw [View.canon_unit_zero hz]
  simp only [View.ld_unit_zero (S := S2048x512) hz, View.ld_unit_zero (S := S512x128) hz]
  obtain ⟨e0, e1, e2, e3, e4, e5⟩ := idx_facts0 t
  funext j
  refine (proj_pay_apply _ _ j).trans ?_
  show _ = projSpec (V c main_arg0) (V c main_arg2) ((((cfg0.win 2).blk t).view.emb j) 0) ((((cfg0.win 2).blk t).view.emb j) 1)
  unfold projSpec
  refine Finset.sum_congr rfl fun d _ => congrArg₂ (· * ·) ?_ ?_
  · show V c main_arg0 (((cfg0.win 0).blk t).view.emb (lidx_proj j d)) = V c main_arg0 _
    refine congrArg _ (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * d.val = d.val; omega
  · show V c main_arg2 (((cfg0.win 1).blk t).view.emb (ridx_proj j d)) = V c main_arg2 _
    refine congrArg _ (funext fun a => Fin.ext ?_)
    match a with
    | ⟨0, _⟩ => show win0_1.index t (0 : Fin 2) * 512 + 1 * d.val = d.val; omega
    | ⟨1, _⟩ => show win0_1.index t (1 : Fin 2) * 128 + 1 * (j 1).val = win0_2.index t (1 : Fin 2) * 128 + 1 * (j 1).val; omega

/-- An index of `x` is in point `t`'s block iff each coordinate is in the block's range on its axis. -/
theorem mem_blk0 (t : Fin cfg0.N) (i : S16384x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v0).slice (win0_2.rect t)).set ↔ _
  rw [View.set_slice_whole, Rect.mem_set_unit]
  exact Iff.rfl

/-- Row r of `x` is written by point r / 2048. -/
theorem proj_cover (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 8 := N_0
  have hn : (i 0).val / 2048 < cfg0.N := by rw [hN]; omega
  obtain ⟨-, -, -, -, e4, e5⟩ := idx_facts0 ⟨(i 0).val / 2048, hn⟩
  have e4' : win0_2.index ⟨(i 0).val / 2048, hn⟩ (0 : Fin 2) = (i 0).val / 2048 := e4
  refine ⟨⟨(i 0).val / 2048, hn⟩, flush0_2 _, ?_⟩
  rw [mem_blk0]
  intro a
  match a with
  | ⟨0, _⟩ => show win0_2.index ⟨(i 0).val / 2048, hn⟩ (0 : Fin 2) * 2048 ≤ (i 0).val ∧ (i 0).val < win0_2.index ⟨(i 0).val / 2048, hn⟩ (0 : Fin 2) * 2048 + 2048; omega
  | ⟨1, _⟩ => show win0_2.index ⟨(i 0).val / 2048, hn⟩ (1 : Fin 2) * 128 ≤ (i 1).val ∧ (i 1).val < win0_2.index ⟨(i 0).val / 2048, hn⟩ (1 : Fin 2) * 128 + 128; omega

/-- After the region `x` holds `inputs · weights` of the arrays as the region found them. -/
theorem proj_final (c : Dev nD) :
    (dat0 V c).arrAt 2 cfg0.N = xArr (V c main_arg0) (V c main_arg2) :=
  (dat0 V c).arrAt_eq_of_cover 2 _ (fun t _ => proj_flushed V c t) proj_cover

end Cert.KernelIdeal.Val

end
-- ==== Proof.AggValue.lean ====
/-
  What the aggregation region leaves in the result, at the ideal instance: `adj · x` of the arrays as the region found
  them. Points 8a, …, 8a + 7 work on row block a: the accumulator resets at 8a and each point 8a + s adds the product of
  block (a, s) of `adj` with block s of `x`, which at (p, q) is Σ_kk adj(1024 a + p, 2048 s + kk) · x(2048 s + kk, q).
  So after point 8a + 7 the accumulator at (p, q) is the sum over s < 8 of those, that is Σ_k adj(1024 a + p, k) · x(k, q)
  regrouped into eight blocks: rows [1024 a, 1024 (a+1)) of the one whole-array function. That point writes the block
  back, and the sixteen row blocks cover the result.
-/
import proofs.«109502_j53240414601890_1_alg».proof.Proof.AggRegion
import proofs.«109502_j53240414601890_1_alg».proof.Proof.PayloadAt
import proofs.«109502_j53240414601890_1_alg».proof.Proof.Spec
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.KernelIdeal.Spec

variable (V : (c : Dev nD) → (b : Ref sig .tc) → Buf (Elt Ideal) ((c : Thread nD τ).loc b))

/-- The result as an array of the buffer's own type. -/
abbrev outArr (a1 : S16384x16384.Idx → Elt Ideal .f32) (x : S16384x128.Idx → Elt Ideal .bf16) : S16384x128.Idx → Elt Ideal .f32 :=
  fun i => aggSpec a1 x (i 0) (i 1)

/-- The printed index maps over the 128 points: point t is row block t / 8 and k-step t % 8. -/
theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-! ## The two arrays by natural-number coordinates, and a point's blocks read through them -/

/-- `adj` as the region finds it, at natural coordinates (zero outside the array: never read there). -/
def adjN (c : Dev nD) (r k : ℕ) : EReal :=
  if h : r < 16384 ∧ k < 16384 then (V c main_arg1 : S16384x16384.Idx → Elt Ideal .f32) (ix2 ⟨r, h.1⟩ ⟨k, h.2⟩) else 0
/-- `x` as the region finds it. -/
def xN (c : Dev nD) (k q : ℕ) : EReal :=
  if h : k < 16384 ∧ q < 128 then (V c main_v0 : S16384x128.Idx → Elt Ideal .bf16) (ix2 ⟨k, h.1⟩ ⟨q, h.2⟩) else 0

/-- The block of `adj` point `n` reads, and the block of `x`. -/
abbrev adjBlk (c : Dev nD) (n : ℕ) (h : n < cfg1.N) : Vec Ideal S1024x2048 .f32 := iblk1 V c 0 ⟨n, h⟩
abbrev xBlk (c : Dev nD) (n : ℕ) (h : n < cfg1.N) : Vec Ideal S2048x128 .bf16 := iblk1 V c 1 ⟨n, h⟩

theorem adjBlk_apply (c : Dev nD) (n : ℕ) (h : n < cfg1.N) (y : S1024x128.Idx) (kk : Fin 2048) :
    adjBlk V c n h (lidx_agg y kk) = adjN V c (n / 8 * 1024 + (y 0).val) (n % 8 * 2048 + kk.val) := by
  have h128 : n < 128 := lt_of_lt_of_eq h N_1
  have hy : (y 0).val < 1024 := (y 0).isLt
  have hk : kk.val < 2048 := kk.isLt
  obtain ⟨e0, e1, -, -, -, -⟩ := idx_facts1 ⟨n, h⟩
  have e0' : win1_0.index ⟨n, h⟩ (0 : Fin 2) = n / 8 := e0
  have e1' : win1_0.index ⟨n, h⟩ (1 : Fin 2) = n % 8 := e1
  have hb : n / 8 * 1024 + (y 0).val < 16384 ∧ n % 8 * 2048 + kk.val < 16384 := ⟨by omega, by omega⟩
  unfold adjN
  rw [dif_pos hb]
  show V c main_arg1 (((cfg1.win 0).blk ⟨n, h⟩).view.emb (lidx_agg y kk)) = V c main_arg1 _
  refine congrArg _ (funext fun a => Fin.ext ?_)
  match a with
  | ⟨0, _⟩ => show win1_0.index ⟨n, h⟩ (0 : Fin 2) * 1024 + 1 * (y 0).val = n / 8 * 1024 + (y 0).val; omega
  | ⟨1, _⟩ => show win1_0.index ⟨n, h⟩ (1 : Fin 2) * 2048 + 1 * kk.val = n % 8 * 2048 + kk.val; omega

theorem xBlk_apply (c : Dev nD) (n : ℕ) (h : n < cfg1.N) (y : S1024x128.Idx) (kk : Fin 2048) :
    xBlk V c n h (ridx_agg y kk) = xN V c (n % 8 * 2048 + kk.val) (y 1).val := by
  have h128 : n < 128 := lt_of_lt_of_eq h N_1
  have hy : (y 1).val < 128 := (y 1).isLt
  have hk : kk.val < 2048 := kk.isLt
  obtain ⟨-, -, e2, e3, -, -⟩ := idx_facts1 ⟨n, h⟩
  have e2' : win1_1.index ⟨n, h⟩ (0 : Fin 2) = n % 8 := e2
  have hb : n % 8 * 2048 + kk.val < 16384 ∧ (y 1).val < 128 := ⟨by omega, hy⟩
  unfold xN
  rw [dif_pos hb]
  show V c main_v0 (((cfg1.win 1).blk ⟨n, h⟩).view.emb (ridx_agg y kk)) = V c main_v0 _
  refine congrArg _ (funext fun a => Fin.ext ?_)
  match a with
  | ⟨0, _⟩ => show win1_1.index ⟨n, h⟩ (0 : Fin 2) * 2048 + 1 * kk.val = n % 8 * 2048 + kk.val; omega
  | ⟨1, _⟩ => show win1_1.index ⟨n, h⟩ (1 : Fin 2) * 128 + 1 * (y 1).val = (y 1).val; omega

/-- The specification's entry through the natural-coordinate readings. -/
theorem aggSpec_nat (c : Dev nD) (r : Fin 16384) (q : Fin 128) :
    aggSpec (V c main_arg1) (V c main_v0) r q = ∑ k : Fin 16384, adjN V c r.val k.val * xN V c k.val q.val := by
  unfold aggSpec adjN xN
  refine Finset.sum_congr rfl fun k _ => ?_
  rw [dif_pos ⟨r.isLt, k.isLt⟩, dif_pos ⟨k.isLt, q.isLt⟩]

/-- The result array at an index given by its two coordinates. -/
theorem outArr_ix2 (c : Dev nD) (r : Fin 16384) (q : Fin 128) :
    outArr (V c main_arg1) (V c main_v0) (ix2 r q) = ∑ k : Fin 16384, adjN V c r.val k.val * xN V c k.val q.val :=
  aggSpec_nat V c r q

/-! ## The accumulator as a fold, unrolled -/

/-- What point `n` adds to the accumulator, at an index of the block. -/
def addend (c : Dev nD) (n : ℕ) (y : S1024x128.Idx) : EReal :=
  if h : n < cfg1.N then ∑ k : Fin 2048, adjBlk V c n h (lidx_agg y k) * xBlk V c n h (ridx_agg y k) else 0

/-- After point t the accumulator holds the sum of what the points of t's run of eight, up to t, added. -/
theorem acc_unrolled (c : Dev nD) (t : Fin cfg1.N) (y : S1024x128.Idx) :
    accAt1 V c t.val t.isLt y = 0 + ∑ s ∈ Finset.range (t.val % 8 + 1), addend V c (8 * (t.val / 8) + s) y := by
  have h' : 8 * (t.val / 8) + t.val % 8 < cfg1.N := by rw [Nat.div_add_mod]; exact t.isLt
  have hm : t.val % 8 < 8 := Nat.mod_lt _ (by norm_num)
  refine (congrFun (Pipeline.eq_accAt_of_mod (accAt1 V c) 8
    (fun n h => k1_pay2 (adjBlk V c n h) (xBlk V c n h) (k1_pay1 (F := Ideal)))
    (fun n h acc => k1_pay2 (adjBlk V c n h) (xBlk V c n h) acc)
    (fun n h h0 => accAt1_first V c ⟨n, h⟩ h0) (fun n h hne => accAt1_next V c ⟨n + 1, h⟩ hne) (by norm_num) t.val t.isLt h') y).trans ?_
  refine Pipeline.accAt_add_apply _ _ (fun _ => (0 : EReal)) (addend V c) (8 * (t.val / 8)) 7 (fun h i => ?_) (fun n h acc i _ _ => ?_) (t.val % 8) (by omega) h' y
  · refine (agg_pay_apply _ _ _ i).trans ?_
    rw [zero_pay_apply]
    simp only [addend, dif_pos h]
  · refine (agg_pay_apply _ _ acc i).trans ?_
    simp only [addend, dif_pos h]

/-! ## From blocks to the array -/

/-- What a point with k = 7 writes back is its row block of `adj · x`. -/
theorem agg_flushed (c : Dev nD) (t : Fin cfg1.N) (hf : (cfg1.win 2).flush t = true) :
    (dat1 V c).flushed 2 t = ((cfg1.win 2).blk t).view.read (Elt Ideal) (outArr (V c main_arg1) (V c main_v0)) := by
  have h7 : t.val % 8 = 7 := (flush1_2 t).mp hf
  have ht : t.val < 128 := lt_of_lt_of_eq t.isLt N_1
  show (cfg1.win 2).cut (grid1.coords t) ((dat1 V c).after 2 t) = _
  rw [after1_2]
  funext y
  refine (acc_unrolled V c t y).trans ?_
  rw [h7, zero_add, View.read_apply]
  obtain ⟨-, -, -, -, e4, e5⟩ := idx_facts1 t
  have hy0 : (y 0).val < 1024 := (y 0).isLt
  have hy1 : (y 1).val < 128 := (y 1).isLt
  have hb : t.val / 8 * 1024 + (y 0).val < 16384 ∧ (y 1).val < 128 := ⟨by omega, hy1⟩
  have hi : ((cfg1.win 2).blk t).view.emb y
      = (ix2 (⟨t.val / 8 * 1024 + (y 0).val, hb.1⟩ : Fin 16384) (⟨(y 1).val, hb.2⟩ : Fin 128) : S16384x128.Idx) :=
    funext fun a => Fin.ext (by
      match a with
      | ⟨0, _⟩ => show win1_2.index t (0 : Fin 2) * 1024 + 1 * (y 0).val = t.val / 8 * 1024 + (y 0).val; omega
      | ⟨1, _⟩ => show win1_2.index t (1 : Fin 2) * 128 + 1 * (y 1).val = (y 1).val; omega)
  rw [hi, outArr_ix2]
  dsimp only
  rw [sum_blocks8 (fun k => adjN V c (t.val / 8 * 1024 + (y 0).val) k * xN V c k (y 1).val)]
  refine Finset.sum_congr rfl fun s hs => ?_
  have hs8 : s < 8 := Finset.mem_range.mp hs
  have hn : 8 * (t.val / 8) + s < cfg1.N := lt_of_lt_of_eq (by omega : 8 * (t.val / 8) + s < 128) N_1.symm
  have d1 : (8 * (t.val / 8) + s) / 8 = t.val / 8 := by omega
  have d2 : (8 * (t.val / 8) + s) % 8 = s := by omega
  unfold addend
  rw [dif_pos hn]
  refine Finset.sum_congr rfl fun kk _ => ?_
  rw [adjBlk_apply, xBlk_apply, d1, d2, Nat.mul_comm s 2048]

theorem mem_blk1 (t : Fin cfg1.N) (i : S16384x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v1).slice (win1_2.rect t)).set ↔ _
  rw [View.set_slice_whole, Rect.mem_set_unit]
  exact Iff.rfl

/-- Row r of the result is written by the last k-step of row block r / 1024. -/
theorem agg_cover (i : S16384x128.Idx) :
    ∃ t : Fin cfg1.N, (cfg1.win 2).flush t = true ∧ i ∈ ((cfg1.win 2).blk t).view.set := by
  have hi0 : (i 0).val < 16384 := (i 0).isLt
  have hi1 : (i 1).val < 128 := (i 1).isLt
  have hn : 8 * ((i 0).val / 1024) + 7 < cfg1.N := by rw [show cfg1.N = 128 from N_1]; omega
  obtain ⟨-, -, -, -, e4, e5⟩ := idx_facts1 ⟨8 * ((i 0).val / 1024) + 7, hn⟩
  have e4' : win1_2.index ⟨8 * ((i 0).val / 1024) + 7, hn⟩ (0 : Fin 2) = (8 * ((i 0).val / 1024) + 7) / 8 := e4
  refine ⟨⟨8 * ((i 0).val / 1024) + 7, hn⟩, (flush1_2 _).mpr (by show (8 * ((i 0).val / 1024) + 7) % 8 = 7; omega), ?_⟩
  rw [mem_blk1]
  intro a
  match a with
  | ⟨0, _⟩ => show win1_2.index ⟨8 * ((i 0).val / 1024) + 7, hn⟩ (0 : Fin 2) * 1024 ≤ (i 0).val ∧ (i 0).val < win1_2.index ⟨8 * ((i 0).val / 1024) + 7, hn⟩ (0 : Fin 2) * 1024 + 1024; omega
  | ⟨1, _⟩ => show win1_2.index ⟨8 * ((i 0).val / 1024) + 7, hn⟩ (1 : Fin 2) * 128 ≤ (i 1).val ∧ (i 1).val < win1_2.index ⟨8 * ((i 0).val / 1024) + 7, hn⟩ (1 : Fin 2) * 128 + 128; omega

/-- After the region the result holds `adj · x` of the arrays as the region found them. -/
theorem agg_final (c : Dev nD) :
    (dat1 V c).arrAt 2 cfg1.N = outArr (V c main_arg1) (V c main_v0) :=
  (dat1 V c).arrAt_eq_of_cover 2 _ (fun t hf => agg_flushed V c t hf) agg_cover

end Cert.KernelIdeal.Val

end
-- ==== Proof.KernelValue.lean ====
/-
  The idealized kernel's run, with its result named: the result buffer ends at `adj · (inputs · weights)` of the launch
  contents. The aggregation leaves `adj · x` of what it found; it found `adj` as launched (the projection does not touch
  it) and `x` as the projection left it, which is `inputs · weights` of the launch contents.
-/
import proofs.«109502_j53240414601890_1_alg».proof.Proof.WholeRun
import proofs.«109502_j53240414601890_1_alg».proof.Proof.ProjValue
import proofs.«109502_j53240414601890_1_alg».proof.Proof.AggValue

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.KernelIdeal.Spec

variable (m : (ℓ : Loc nD τ sig) → Buf (Elt Ideal) ℓ) (ρ : Dev nD → PrngReg)

/-- What the aggregation's write-backs leave, in terms of the launch contents. -/
theorem result_eq (c : Dev nD) :
    (dat1 (V1 m) c).arrAt 2 cfg1.N
      = aggArr (m ((c.tc : Thread nD τ).loc main_arg1)) (projArr (m ((c.tc : Thread nD τ).loc main_arg0)) (m ((c.tc : Thread nD τ).loc main_arg2))) := by
  rw [agg_final (V1 m) c, V1_main_arg1, V1_main_v0, proj_final (V0 m) c]
  rfl

/-- Every weakly fair execution of the idealized kernel terminates with the result at `adj · (inputs · weights)` and the
    arguments unchanged. -/
theorem kernel_value : θ_run defs (onTc (τ := τ) (main (F := Ideal))) ⟨m, fun _ => 0, ρ⟩ (fun r => ∀ c : Dev nD,
      r.2.mem ((c.tc : Thread nD τ).loc main_v1)
        = aggArr (m ((c.tc : Thread nD τ).loc main_arg1)) (projArr (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m c), (h c).2⟩) (run_valued (F := Ideal) m ρ)

end Cert.KernelIdeal.Val

end
-- ==== Proof.RefVal.lean ====
/-
  The reference at the ideal instance: its second product, read at an index through the generated stage lemmas, is the
  specification's `adj · (inputs · weights)`: the same two sums, the operand indices being (row, k) and (k, column).
-/
import proofs.«109502_j53240414601890_1_alg».proof.Proof.Gen.ReferenceIdeal.Read
import proofs.«109502_j53240414601890_1_alg».proof.Proof.Spec

noncomputable section

namespace Cert.KernelIdeal.RefVal

open Idealize.ShloMosaic Idealize.ShloMosaic.ValueIdx Cert.KernelIdeal.Spec
open Cert.ReferenceIdeal Cert.ReferenceIdeal.Read

/-- The reference's result is `adj · (inputs · weights)`, entry by entry. -/
theorem ref_eq (x0 : (⟨S16384x512, .f32⟩ : BufTy).Contents (Elt Ideal)) (x1 : (⟨S16384x16384, .f32⟩ : BufTy).Contents (Elt Ideal))
    (x2 : (⟨S512x128, .f32⟩ : BufTy).Contents (Elt Ideal)) :
    val_main_v1 (F := Ideal) x0 x1 x2 = aggArr x1 (projArr x0 x2) := by
  funext i
  obtain ⟨p, q, rfl⟩ : ∃ (p : Fin 16384) (q : Fin 128), i = ix2 p q := ⟨i 0, i 1, eq_ix2 i⟩
  rw [val_main_v1_apply]
  show _ = aggSpec x1 (projArr x0 x2) p q
  unfold aggSpec
  refine Finset.sum_congr rfl fun k _ => ?_
  rw [val_main_v0_apply]
  show _ = x1 (ix2 p k) * projSpec x0 x2 k q
  unfold projSpec
  refine congrArg₂ (· * ·) (congrArg x1 ?_) (Finset.sum_congr rfl fun d _ => congrArg₂ (· * ·) (congrArg x0 ?_) (congrArg x2 ?_))
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl | ⟨1, _⟩ => rfl)

end Cert.KernelIdeal.RefVal

end
-- ==== Proof.lean ====
/-
  The certificate. The kernel computes `x = inputs · weights` in one pipelined region (eight row blocks) and
  `out = adj · x` in a second (sixteen row blocks, each accumulated over eight blocks of the contracted axis in a scratch
  accumulator); the reference is the two plain products. Over the extended reals both are the function
  out(r, q) = Σ_k adj(r, k) · Σ_d inputs(k, d) · weights(d, q): the kernel's changes of float format are identities there,
  its matrix-unit products into a zero accumulator are plain sums, and its blocked accumulation regroups one sum into
  eight consecutive blocks, which uses only that + is associative and commutative. So the precondition (finite inputs)
  is never opened.
  The three frames: each kernel program's run is proved once for any float instance (both regions' bodies executed
  symbolically, the accumulator's contents carried between grid points by the region's invariant) and read at the word
  level and at the ideal instance; the reference's frame is its run with the result dropped. The idealization rewrote
  no operation, so there is nothing to preserve.
-/
import proofs.«109502_j53240414601890_1_alg».proof.Defs
import proofs.«109502_j53240414601890_1_alg».proof.Proof.Gen.Kernel
import proofs.«109502_j53240414601890_1_alg».proof.Proof.Gen.KernelIdeal
import proofs.«109502_j53240414601890_1_alg».proof.Proof.Gen.ReferenceIdeal
import proofs.«109502_j53240414601890_1_alg».proof.Proof.Gen.Pre_finite_inputs
import proofs.«109502_j53240414601890_1_alg».proof.Proof.Gen.ReferenceIdeal.Run
import proofs.«109502_j53240414601890_1_alg».proof.Proof.Gen.ReferenceIdeal.Read
import proofs.«109502_j53240414601890_1_alg».proof.Proof.KernelWholeRun
import proofs.«109502_j53240414601890_1_alg».proof.Proof.KernelValue
import proofs.«109502_j53240414601890_1_alg».proof.Proof.RefVal
import Idealize.ShloMosaic.Adequacy
import Idealize.ShloMosaic.Init

noncomputable section

namespace Cert.Proof

open Idealize.ShloMosaic Idealize.SL.Sem Cert.KernelIdeal.Spec

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with `adj · (inputs · weights)` of arguments that agree. -/
theorem algebraic : Cert.algebraic_KernelIdeal_ReferenceIdeal := by
  intro m ρ m' ρ' _ hagree
  refine ⟨fun c => aggArr (m ((c.tc : Thread Cert.KernelIdeal.nD Cert.KernelIdeal.τ).loc Cert.KernelIdeal.main_arg1))
      (projArr (m ((c.tc : Thread Cert.KernelIdeal.nD Cert.KernelIdeal.τ).loc Cert.KernelIdeal.main_arg0))
        (m ((c.tc : Thread Cert.KernelIdeal.nD Cert.KernelIdeal.τ).loc Cert.KernelIdeal.main_arg2))),
    Cert.KernelIdeal.Val.kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.KernelIdeal.RefVal.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
